-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x128, .f32⟩
  | .hbm, ⟨9, _⟩ => ⟨S10000x64, .f32⟩
  | .hbm, ⟨10, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x64, .f32⟩
  | .local _ .vmem, ⟨8, _⟩ => ⟨S400x64, .f32⟩
  | .local _ .vmem, ⟨9, _⟩ => ⟨S400x64, .f32⟩
  | .local _ .vmem, ⟨10, _⟩ => ⟨S400x10000, .f32⟩
  | .local _ .vmem, ⟨11, _⟩ => ⟨S400x10000, .f32⟩
  | .local _ .vmem, ⟨12, _⟩ => ⟨S10000x64, .f32⟩
  | .local _ .vmem, ⟨13, _⟩ => ⟨S1x64, .f32⟩
  | .local _ .vmem, ⟨14, _⟩ => ⟨S400x64, .f32⟩
  | .local _ .vmem, ⟨15, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000x64, .f32⟩
  | .hbm, ⟨21, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/-
  The two-layer graph convolution, written once as entries of matrices over the extended reals.

  With `x : 10000 × 128`, `adj : 10000 × 10000`, `W1 : 128 × 128`, `b1 : 128`, `W2 : 128 × 64`, `b2 : 64`:
    support   = x · W1                              (10000 × 128)
    hidden    = max (adj · support + b1, 0)         (10000 × 128, the bias added along each row)
    projected = hidden · W2                         (10000 × 64)
    result    = max (adj · projected + b2, 0)       (10000 × 64)
  Every product is the plain sum over the contracted axis of the factors' products; no sum is re-associated
  and nothing is distributed, so no entry needs to be finite for the two programs to agree: both are these
  four functions, one composed after the other in the same order.

  The biases enter as functions of the column alone, so that a program holding the bias as a vector and one
  holding it as a one-row matrix state the same entry.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals with `a` rows and `b` columns, indexed as the programs index their arrays. -/
abbrev Mat (a b : Nat) : Type := (⟨2, ![a, b]⟩ : Shape).Idx → EReal

/-- The matrix whose entry in row `r`, column `c` is `f r c`. -/
def ofEntries {a b : Nat} (f : Fin a → Fin b → EReal) : Mat a b :=
  fun i => f ⟨(i 0).val, idx2_lt0 i⟩ ⟨(i 1).val, idx2_lt1 i⟩

/-- Its entry at row `r`, column `c`. -/
theorem ofEntries_ix2 {a b : Nat} (f : Fin a → Fin b → EReal) (r : Fin a) (c : Fin b) :
    ofEntries f (ix2 r c) = f r c := rfl

/-- `(x · W1)[r, c] = Σₖ x[r, k] · W1[k, c]`. -/
def support (x : Mat 10000 128) (w1 : Mat 128 128) (r : Fin 10000) (c : Fin 128) : EReal :=
  ∑ k : Fin 128, x (ix2 r k) * w1 (ix2 k c)

/-- `max ((adj · s)[r, j] + b1[j], 0)`: the first layer's activation, from the support `s`. -/
def hidden (adj : Mat 10000 10000) (s : Mat 10000 128) (b1 : Fin 128 → EReal) (r : Fin 10000) (j : Fin 128) : EReal :=
  max ((∑ k : Fin 10000, adj (ix2 r k) * s (ix2 k j)) + b1 j) 0

/-- `(hidden · W2)[r, c] = Σⱼ hidden[r, j] · W2[j, c]`. -/
def projected (adj : Mat 10000 10000) (s : Mat 10000 128) (b1 : Fin 128 → EReal) (w2 : Mat 128 64)
    (r : Fin 10000) (c : Fin 64) : EReal :=
  ∑ j : Fin 128, hidden adj s b1 r j * w2 (ix2 j c)

/-- `max ((adj · p)[r, c] + b2[c], 0)`: the second layer's activation, from the projected features `p`. -/
def result (adj : Mat 10000 10000) (p : Mat 10000 64) (b2 : Fin 64 → EReal) (r : Fin 10000) (c : Fin 64) : EReal :=
  max ((∑ k : Fin 10000, adj (ix2 r k) * p (ix2 k c)) + b2 c) 0

/-- The whole network's output array from the six argument arrays, the biases given by column. -/
def network (x : Mat 10000 128) (adj : Mat 10000 10000) (w1 : Mat 128 128) (b1 : Fin 128 → EReal)
    (w2 : Mat 128 64) (b2 : Fin 64 → EReal) : Mat 10000 64 :=
  ofEntries (result adj (ofEntries (projected adj (ofEntries (support x w1)) b1 w2)) b2)

end Cert.Gcn

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.Payloads.lean ====
/-
  What each of the three kernel bodies stores, read at a row `p` and a column `q` of its output block, on the
  extended reals.

  * the support kernel stores `x · W1`:            `Σₖ x[p, k] · W1[k, q]`;
  * the first layer stores `max (A · s + b, 0) · W2` for its block `A` of 400 adjacency rows, the whole support
    `s` and the bias `b` held as a one-row matrix:  `Σⱼ max (Σₖ A[p, k] · s[k, j] + b[0, j], 0) · W2[j, q]`;
  * the second layer stores `max (A · h + b, 0)`:   `max (Σₖ A[p, k] · h[k, q] + b[0, q], 0)`.

  Each matrix product is a plain one into an accumulator of zeros (LibPlainDot.lean); the casts to the same shape
  are the identity; a one-row matrix broadcast down the rows is read in its row; the splat of the zero pattern is `0`.
-/
import proofs.«130448_g3075196584310_cont_9to1_627_2_alg».proof.Proof.LibPlainDot
import proofs.«130448_g3075196584310_cont_9to1_627_2_alg».proof.Proof.Gen.KernelIdeal.Skeleton
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The four products' dimension numbers are the plain ones -/

theorem dims_support : dot_S10000x128_S128x128_S10000x128_1_0_0_1_n_n = DotDims.plain 10000 128 128 := rfl
theorem dims_aggregate1 : dot_S400x10000_S10000x128_S400x128_1_0_0_1_n_n = DotDims.plain 400 10000 128 := rfl
theorem dims_project : dot_S400x128_S128x64_S400x64_1_0_0_1_n_n = DotDims.plain 400 128 64 := rfl
theorem dims_aggregate2 : dot_S400x10000_S10000x64_S400x64_1_0_0_1_n_n = DotDims.plain 400 10000 64 := rfl

/-! ## A one-row matrix broadcast down 400 rows -/

theorem rowBroadcast128 (b : FVec Ideal S1x128 .f32) (p : Fin 400) (j : Fin 128) :
    broadcastTo S400x128 b broadcasts_S1x128_S400x128 (ix2 p j) = b (ix2 0 j) :=
  broadcastTo_apply b broadcasts_S1x128_S400x128 (ix2 p j) (ix2 0 j) (fun a => match a with
    | ⟨0, _⟩ => by show (0 : Nat) = if (1 : Nat) = 1 then 0 else p.val; rw [if_pos rfl]
    | ⟨1, _⟩ => by show j.val = if (128 : Nat) = 1 then 0 else j.val; rw [if_neg (by decide)])

theorem rowBroadcast64 (b : FVec Ideal S1x64 .f32) (p : Fin 400) (j : Fin 64) :
    broadcastTo S400x64 b broadcasts_S1x64_S400x64 (ix2 p j) = b (ix2 0 j) :=
  broadcastTo_apply b broadcasts_S1x64_S400x64 (ix2 p j) (ix2 0 j) (fun a => match a with
    | ⟨0, _⟩ => by show (0 : Nat) = if (1 : Nat) = 1 then 0 else p.val; rw [if_pos rfl]
    | ⟨1, _⟩ => by show j.val = if (64 : Nat) = 1 then 0 else j.val; rw [if_neg (by decide)])

/-! ## The payloads -/

/-- The support kernel's store: `Σₖ x[p, k] · W1[k, q]`. -/
theorem support_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  rw [dims_support]
  exact PlainDot.matmul_zero_apply 10000 128 128 none x w p q

/-- The first layer's store: `Σⱼ max (Σₖ A[p, k] · s[k, j] + b[0, j], 0) · W2[j, q]`. -/
theorem layer1_apply (a : Vec Ideal S400x10000 .f32) (s : Vec Ideal S10000x128 .f32) (b : Vec Ideal S1x128 .f32)
    (w : Vec Ideal S128x64 .f32) (p : Fin 400) (q : Fin 64) :
    k1_pay1 (F := Ideal) a s b w (ix2 p q)
      = ∑ j : Fin 128, max ((∑ k : Fin 10000, a (ix2 p k) * s (ix2 k j)) + b (ix2 0 j)) 0 * w (ix2 j q) := by
  unfold k1_pay1
  rw [dims_project, dims_aggregate1, shapeCast_self, shapeCast_self]
  refine (PlainDot.matmul_zero_apply 400 128 64 none _ w p q).trans ?_
  refine Finset.sum_congr rfl fun j _ => ?_
  congr 1
  show max (FloatOps.matmul (DotDims.plain 400 10000 128) none a s (constant (F := Ideal) S400x128 .f32 0x00000000#32) (ix2 p j)
      + broadcastTo S400x128 b broadcasts_S1x128_S400x128 (ix2 p j)) (Ideal.ofBits .f32 0x00000000#32) = _
  rw [PlainDot.matmul_zero_apply 400 10000 128 none a s p j, rowBroadcast128, Ideal.ofBits_zero_f32]

/-- The second layer's store: `max (Σₖ A[p, k] · h[k, q] + b[0, q], 0)`. -/
theorem layer2_apply (a : Vec Ideal S400x10000 .f32) (h : Vec Ideal S10000x64 .f32) (b : Vec Ideal S1x64 .f32)
    (p : Fin 400) (q : Fin 64) :
    k2_pay1 (F := Ideal) a h b (ix2 p q)
      = max ((∑ k : Fin 10000, a (ix2 p k) * h (ix2 k q)) + b (ix2 0 q)) 0 := by
  unfold k2_pay1
  rw [dims_aggregate2, shapeCast_self, shapeCast_self]
  show max (FloatOps.matmul (DotDims.plain 400 10000 64) none a h (constant (F := Ideal) S400x64 .f32 0x00000000#32) (ix2 p q)
      + broadcastTo S400x64 b broadcasts_S1x64_S400x64 (ix2 p q)) (Ideal.ofBits .f32 0x00000000#32) = _
  rw [PlainDot.matmul_zero_apply 400 10000 64 none a h p q, rowBroadcast64, Ideal.ofBits_zero_f32]

end Cert.KernelIdeal.Payload

end
-- ==== Proof.SupportValue.lean ====
/-
  The support kernel's pallas_call, as a function of the arrays it finds.

  It has no grid: one point, whose blocks are the whole arrays. It reads `x` and `W1` and writes the whole
  support, `x · W1`; the one block is the whole output array, so the array ends holding that matrix.
-/
import proofs.«130448_g3075196584310_cont_9to1_627_2_alg».proof.Proof.Spec
import proofs.«130448_g3075196584310_cont_9to1_627_2_alg».proof.Proof.Payloads
import proofs.«130448_g3075196584310_cont_9to1_627_2_alg».proof.Proof.Gen.KernelIdeal.Frame
import Idealize.ShloMosaic.Lib.Pipeline.Value

set_option maxRecDepth 16384

noncomputable section

open scoped BigOperators

namespace Cert.KernelIdeal.Support

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Every window's block index is `0` on both axes at the one point. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- There is a point. -/
theorem point : ∃ t : Fin cfg0.N, True := (by decide +kernel : ∃ t : Fin grid0.N, True)

/-- The input blocks at the point, at their literal shapes. -/
abbrev xBlock (c : Dev nD) (t : Fin cfg0.N) : Vec Ideal S10000x128 .f32 := iblk0 V c 0 t
abbrev weightBlock (c : Dev nD) (t : Fin cfg0.N) : Vec Ideal S128x128 .f32 := iblk0 V c 1 t

/-- The arrays the region finds, at their literal shapes. -/
abbrev xArr (c : Dev nD) : Vec Ideal S10000x128 .f32 := V c main_arg0
abbrev weightArr (c : Dev nD) : Vec Ideal S128x128 .f32 := V c main_arg2

/-- The matrix the output array ends holding. -/
def target (c : Dev nD) : Vec Ideal S10000x128 .f32 :=
  ofEntries (support (xArr V c) (weightArr V c))

/-- The block of `x` is the whole array, read at the output block's row. -/
theorem xBlock_apply (c : Dev nD) (t : Fin cfg0.N) (p : Fin 10000) (k : Fin 128) (R : Fin 10000)
    (hR : R.val = win0_2.index t (0 : Fin 2) * 10000 + 1 * p.val) :
    xBlock V c t (ix2 p k) = xArr V c (ix2 R k) := by
  obtain ⟨e0, e1, -, -, e4, e5⟩ := index_facts t
  show V c main_arg0 (((cfg0.win 0).blk t).view.emb (ix2 p k)) = V c main_arg0 (ix2 R k)
  refine congrArg _ (funext fun a => Fin.ext ?_)
  match a with
  | ⟨0, _⟩ => show win0_0.index t (0 : Fin 2) * 10000 + 1 * p.val = R.val; omega
  | ⟨1, _⟩ => show win0_0.index t (1 : Fin 2) * 128 + 1 * k.val = k.val; omega

/-- The block of `W1` is the whole array, read at the output block's column. -/
theorem weightBlock_apply (c : Dev nD) (t : Fin cfg0.N) (k : Fin 128) (q C : Fin 128)
    (hC : C.val = win0_2.index t (1 : Fin 2) * 128 + 1 * q.val) :
    weightBlock V c t (ix2 k q) = weightArr V c (ix2 k C) := by
  obtain ⟨-, -, e2, e3, e4, e5⟩ := index_facts t
  show V c main_arg2 (((cfg0.win 1).blk t).view.emb (ix2 k q)) = V c main_arg2 (ix2 k C)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = C.val; omega

/-- WHAT THE POINT WRITES BACK is the target matrix read through its (whole) block. -/
theorem flushed_eq (c : Dev nD) (t : Fin cfg0.N) :
    (dat0 V c).flushed 2 t = ((cfg0.win 2).blk t).view.read (Elt Ideal) (target V c) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x128) offsets_zero]
  funext y
  obtain ⟨p, q, rfl⟩ : ∃ (p : Fin 10000) (q : Fin 128), y = ix2 p q := ⟨y 0, y 1, eq_ix2 y⟩
  show k0_pay1 (F := Ideal) (xBlock V c t) (weightBlock V c t) (ix2 p q)
    = target V c (((cfg0.win 2).blk t).view.emb (ix2 p q))
  refine (Payload.support_apply (xBlock V c t) (weightBlock V c t) p q).trans ?_
  have hR : (⟨((((cfg0.win 2).blk t).view.emb (ix2 p q)) 0).val, idx2_lt0 _⟩ : Fin 10000).val
      = win0_2.index t (0 : Fin 2) * 10000 + 1 * p.val := rfl
  have hC : (⟨((((cfg0.win 2).blk t).view.emb (ix2 p q)) 1).val, idx2_lt1 _⟩ : Fin 128).val
      = win0_2.index t (1 : Fin 2) * 128 + 1 * q.val := rfl
  unfold target ofEntries support
  exact Finset.sum_congr rfl fun k _ => by rw [xBlock_apply V c t p k _ hR, weightBlock_apply V c t k q _ hC]

/-- An index of the output array is in the point's block iff each coordinate is in the block's range. -/
theorem mem_block (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v2).slice (win0_2.rect t)).set ↔ _
  rw [View.set_slice_whole, Rect.mem_set_unit]
  exact Iff.rfl

/-- Every index of the output array is in the one point's block. -/
theorem covered (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, -⟩ := point
  obtain ⟨-, -, -, -, e4, e5⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY after the point: the target matrix of the arrays the region found. -/
theorem array_eq (c : Dev nD) : (dat0 V c).arrAt 2 cfg0.N = target V c :=
  (dat0 V c).arrAt_eq_of_cover 2 (target V c) (fun t _ => flushed_eq V c t) covered

end Cert.KernelIdeal.Support

end
-- ==== Proof.Layer1Value.lean ====
/-
  The first layer's pallas_call, as a function of the arrays it finds.

  Its grid has 25 points. At point `t` it reads rows `400 t … 400 t + 399` of the adjacency matrix, the whole
  support, the bias as a one-row matrix and the whole `W2`, and writes rows `400 t … 400 t + 399` of its output.
  Row `p` of the block is row `400 t + p` of the array and the columns are not split, so what point `t` writes
  back is block `t` of ONE matrix, `projected` of the arrays; the 25 blocks tile the 10000 rows (row `r` lies in
  block `r / 400`), so the output array ends holding that matrix.
-/
import proofs.«130448_g3075196584310_cont_9to1_627_2_alg».proof.Proof.Spec
import proofs.«130448_g3075196584310_cont_9to1_627_2_alg».proof.Proof.Payloads
import proofs.«130448_g3075196584310_cont_9to1_627_2_alg».proof.Proof.Gen.KernelIdeal.Frame
import Idealize.ShloMosaic.Lib.Pipeline.Value

set_option maxRecDepth 16384

noncomputable section

open scoped BigOperators

namespace Cert.KernelIdeal.Layer1

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block index of each window at each of the 25 points: the adjacency rows and the output rows move with
    the point, every other axis stays at block `0`. -/
theorem index_facts : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

/-- Every block of 400 output rows is some point's. -/
theorem index_onto : ∀ q0 : Fin 25, ∃ t : Fin cfg1.N, win1_4.index t = ![q0.val, 0] :=
  (by decide +kernel : ∀ q0 : Fin 25, ∃ t : Fin grid1.N, win1_4.index t = ![q0.val, 0])

/-- The input blocks at a point, at their literal shapes. -/
abbrev adjBlock (c : Dev nD) (t : Fin cfg1.N) : Vec Ideal S400x10000 .f32 := iblk1 V c 0 t
abbrev supportBlock (c : Dev nD) (t : Fin cfg1.N) : Vec Ideal S10000x128 .f32 := iblk1 V c 1 t
abbrev biasBlock (c : Dev nD) (t : Fin cfg1.N) : Vec Ideal S1x128 .f32 := iblk1 V c 2 t
abbrev weightBlock (c : Dev nD) (t : Fin cfg1.N) : Vec Ideal S128x64 .f32 := iblk1 V c 3 t

/-- The arrays the region finds, at their literal shapes. -/
abbrev adjArr (c : Dev nD) : Vec Ideal S10000x10000 .f32 := V c main_arg1
abbrev supportArr (c : Dev nD) : Vec Ideal S10000x128 .f32 := V c main_v2
abbrev biasArr (c : Dev nD) : Vec Ideal S1x128 .f32 := V c main_v0
abbrev weightArr (c : Dev nD) : Vec Ideal S128x64 .f32 := V c main_arg4

/-- The matrix the output array ends holding. -/
def target (c : Dev nD) : Vec Ideal S10000x64 .f32 :=
  ofEntries (projected (adjArr V c) (supportArr V c) (fun j => biasArr V c (ix2 0 j)) (weightArr V c))

/-- Row `p` of the adjacency block at point `t` is the array's row at the output block's row `p`. -/
theorem adjBlock_apply (c : Dev nD) (t : Fin cfg1.N) (p : Fin 400) (k : Fin 10000) (R : Fin 10000)
    (hR : R.val = win1_4.index t (0 : Fin 2) * 400 + 1 * p.val) :
    adjBlock V c t (ix2 p k) = adjArr V c (ix2 R k) := by
  obtain ⟨e0, e1, -⟩ := index_facts t
  show V c main_arg1 (((cfg1.win 0).blk t).view.emb (ix2 p k)) = V c main_arg1 (ix2 R k)
  refine congrArg _ (funext fun a => Fin.ext ?_)
  match a with
  | ⟨0, _⟩ => show win1_0.index t (0 : Fin 2) * 400 + 1 * p.val = R.val; omega
  | ⟨1, _⟩ => show win1_0.index t (1 : Fin 2) * 10000 + 1 * k.val = k.val; omega

/-- The support window's block is the whole array. -/
theorem supportBlock_apply (c : Dev nD) (t : Fin cfg1.N) (k : Fin 10000) (j : Fin 128) :
    supportBlock V c t (ix2 k j) = supportArr V c (ix2 k j) := by
  obtain ⟨-, -, e2, e3, -⟩ := index_facts t
  show V c main_v2 (((cfg1.win 1).blk t).view.emb (ix2 k j)) = V c main_v2 (ix2 k j)
  refine congrArg _ (funext fun a => Fin.ext ?_)
  match a with
  | ⟨0, _⟩ => show win1_1.index t (0 : Fin 2) * 10000 + 1 * k.val = k.val; omega
  | ⟨1, _⟩ => show win1_1.index t (1 : Fin 2) * 128 + 1 * j.val = j.val; omega

/-- The bias window's block is the whole one-row matrix. -/
theorem biasBlock_apply (c : Dev nD) (t : Fin cfg1.N) (j : Fin 128) :
    biasBlock V c t (ix2 0 j) = biasArr V c (ix2 0 j) := by
  obtain ⟨-, -, -, -, e4, e5, -⟩ := index_facts t
  show V c main_v0 (((cfg1.win 2).blk t).view.emb (ix2 0 j)) = V c main_v0 (ix2 0 j)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * j.val = j.val; omega

/-- The weight window's block is the whole array. -/
theorem weightBlock_apply (c : Dev nD) (t : Fin cfg1.N) (j : Fin 128) (q C : Fin 64) (hC : C.val = win1_4.index t (1 : Fin 2) * 64 + 1 * q.val) :
    weightBlock V c t (ix2 j q) = weightArr V c (ix2 j C) := by
  obtain ⟨-, -, -, -, -, -, e6, e7, e8⟩ := index_facts t
  show V c main_arg4 (((cfg1.win 3).blk t).view.emb (ix2 j q)) = V c main_arg4 (ix2 j C)
  refine congrArg _ (funext fun a => Fin.ext ?_)
  match a with
  | ⟨0, _⟩ => show win1_3.index t (0 : Fin 2) * 128 + 1 * j.val = j.val; omega
  | ⟨1, _⟩ => show win1_3.index t (1 : Fin 2) * 64 + 1 * q.val = C.val; omega

/-- WHAT POINT `t` WRITES BACK is block `t` of the target matrix. -/
theorem flushed_eq (c : Dev nD) (t : Fin cfg1.N) :
    (dat1 V c).flushed 4 t = ((cfg1.win 4).blk t).view.read (Elt Ideal) (target V c) := by
  show (cfg1.win 4).cut (grid1.coords t) ((dat1 V c).after 4 t) = _
  rw [after1_4]
  unfold out1_4
  rw [View.canon_unit_zero offsets_zero]
  simp only [View.ld_unit_zero (S := S400x10000) offsets_zero, View.ld_unit_zero (S := S10000x128) offsets_zero,
    View.ld_unit_zero (S := S1x128) offsets_zero, View.ld_unit_zero (S := S128x64) offsets_zero]
  funext y
  obtain ⟨p, q, rfl⟩ : ∃ (p : Fin 400) (q : Fin 64), y = ix2 p q := ⟨y 0, y 1, eq_ix2 y⟩
  show k1_pay1 (F := Ideal) (adjBlock V c t) (supportBlock V c t) (biasBlock V c t) (weightBlock V c t) (ix2 p q)
    = target V c (((cfg1.win 4).blk t).view.emb (ix2 p q))
  refine (Payload.layer1_apply (adjBlock V c t) (supportBlock V c t) (biasBlock V c t) (weightBlock V c t) p q).trans ?_
  have hR : (⟨((((cfg1.win 4).blk t).view.emb (ix2 p q)) 0).val, idx2_lt0 _⟩ : Fin 10000).val
      = win1_4.index t (0 : Fin 2) * 400 + 1 * p.val := rfl
  have hC : (⟨((((cfg1.win 4).blk t).view.emb (ix2 p q)) 1).val, idx2_lt1 _⟩ : Fin 64).val
      = win1_4.index t (1 : Fin 2) * 64 + 1 * q.val := rfl
  unfold target ofEntries projected Gcn.hidden
  refine Finset.sum_congr rfl fun j _ => ?_
  rw [weightBlock_apply V c t j q _ hC, biasBlock_apply V c t j]
  congr 3
  exact Finset.sum_congr rfl fun k _ => by rw [adjBlock_apply V c t p k _ hR, supportBlock_apply V c t k j]

/-- An index of the output array is in point `t`'s block iff each coordinate is in the block's range. -/
theorem mem_block (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v3).slice (win1_4.rect t)).set ↔ _
  rw [View.set_slice_whole, Rect.mem_set_unit]
  exact Iff.rfl

/-- Every index of the output array is in some point's block: row `r` in block `r / 400`. -/
theorem covered (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ := index_onto ⟨(i 0).val / 400, by omega⟩
  have q0 : win1_4.index t (0 : Fin 2) = (i 0).val / 400 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- THE OUTPUT ARRAY after the 25 points: the target matrix of the arrays the region found. -/
theorem array_eq (c : Dev nD) : (dat1 V c).arrAt 4 cfg1.N = target V c :=
  (dat1 V c).arrAt_eq_of_cover 4 (target V c) (fun t _ => flushed_eq V c t) covered

end Cert.KernelIdeal.Layer1

end
-- ==== Proof.Layer2Value.lean ====
/-
  The second layer's pallas_call, as a function of the arrays it finds.

  The same 25 points as the first layer's: at point `t` it reads rows `400 t … 400 t + 399` of the adjacency
  matrix, the whole matrix of projected features and the bias as a one-row matrix, and writes rows
  `400 t … 400 t + 399` of the result. What point `t` writes back is block `t` of ONE matrix, `result` of the
  arrays, and the 25 blocks tile the 10000 rows, so the result array ends holding that matrix.
-/
import proofs.«130448_g3075196584310_cont_9to1_627_2_alg».proof.Proof.Spec
import proofs.«130448_g3075196584310_cont_9to1_627_2_alg».proof.Proof.Payloads
import proofs.«130448_g3075196584310_cont_9to1_627_2_alg».proof.Proof.Gen.KernelIdeal.Frame
import Idealize.ShloMosaic.Lib.Pipeline.Value

set_option maxRecDepth 16384

noncomputable section

open scoped BigOperators

namespace Cert.KernelIdeal.Layer2

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block index of each window at each of the 25 points: the adjacency rows and the result rows move with
    the point, every other axis stays at block `0`. -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (1 : Fin 2) = 0 :=
  (by decide +kernel : ∀ t : Fin grid2.N, _)

/-- Every block of 400 result rows is some point's. -/
theorem index_onto : ∀ q0 : Fin 25, ∃ t : Fin cfg2.N, win2_3.index t = ![q0.val, 0] :=
  (by decide +kernel : ∀ q0 : Fin 25, ∃ t : Fin grid2.N, win2_3.index t = ![q0.val, 0])

/-- The input blocks at a point, at their literal shapes. -/
abbrev adjBlock (c : Dev nD) (t : Fin cfg2.N) : Vec Ideal S400x10000 .f32 := iblk2 V c 0 t
abbrev featureBlock (c : Dev nD) (t : Fin cfg2.N) : Vec Ideal S10000x64 .f32 := iblk2 V c 1 t
abbrev biasBlock (c : Dev nD) (t : Fin cfg2.N) : Vec Ideal S1x64 .f32 := iblk2 V c 2 t

/-- The arrays the region finds, at their literal shapes. -/
abbrev adjArr (c : Dev nD) : Vec Ideal S10000x10000 .f32 := V c main_arg1
abbrev featureArr (c : Dev nD) : Vec Ideal S10000x64 .f32 := V c main_v3
abbrev biasArr (c : Dev nD) : Vec Ideal S1x64 .f32 := V c main_v1

/-- The matrix the result array ends holding. -/
def target (c : Dev nD) : Vec Ideal S10000x64 .f32 :=
  ofEntries (result (adjArr V c) (featureArr V c) (fun q => biasArr V c (ix2 0 q)))

/-- Row `p` of the adjacency block at point `t` is the array's row at the result block's row `p`. -/
theorem adjBlock_apply (c : Dev nD) (t : Fin cfg2.N) (p : Fin 400) (k : Fin 10000) (R : Fin 10000)
    (hR : R.val = win2_3.index t (0 : Fin 2) * 400 + 1 * p.val) :
    adjBlock V c t (ix2 p k) = adjArr V c (ix2 R k) := by
  obtain ⟨e0, e1, -⟩ := index_facts t
  show V c main_arg1 (((cfg2.win 0).blk t).view.emb (ix2 p k)) = V c main_arg1 (ix2 R k)
  refine congrArg _ (funext fun a => Fin.ext ?_)
  match a with
  | ⟨0, _⟩ => show win2_0.index t (0 : Fin 2) * 400 + 1 * p.val = R.val; omega
  | ⟨1, _⟩ => show win2_0.index t (1 : Fin 2) * 10000 + 1 * k.val = k.val; omega

/-- The feature window's block is the whole array, read at the result block's column. -/
theorem featureBlock_apply (c : Dev nD) (t : Fin cfg2.N) (k : Fin 10000) (q C : Fin 64)
    (hC : C.val = win2_3.index t (1 : Fin 2) * 64 + 1 * q.val) :
    featureBlock V c t (ix2 k q) = featureArr V c (ix2 k C) := by
  obtain ⟨-, -, e2, e3, -⟩ := index_facts t
  show V c main_v3 (((cfg2.win 1).blk t).view.emb (ix2 k q)) = V c main_v3 (ix2 k C)
  refine congrArg _ (funext fun a => Fin.ext ?_)
  match a with
  | ⟨0, _⟩ => show win2_1.index t (0 : Fin 2) * 10000 + 1 * k.val = k.val; omega
  | ⟨1, _⟩ => show win2_1.index t (1 : Fin 2) * 64 + 1 * q.val = C.val; omega

/-- The bias window's block is the whole one-row matrix, read at the result block's column. -/
theorem biasBlock_apply (c : Dev nD) (t : Fin cfg2.N) (q C : Fin 64)
    (hC : C.val = win2_3.index t (1 : Fin 2) * 64 + 1 * q.val) :
    biasBlock V c t (ix2 0 q) = biasArr V c (ix2 0 C) := by
  obtain ⟨-, -, -, -, e4, e5, -⟩ := index_facts t
  show V c main_v1 (((cfg2.win 2).blk t).view.emb (ix2 0 q)) = V c main_v1 (ix2 0 C)
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = C.val; omega

/-- WHAT POINT `t` WRITES BACK is block `t` of the target matrix. -/
theorem flushed_eq (c : Dev nD) (t : Fin cfg2.N) :
    (dat2 V c).flushed 3 t = ((cfg2.win 3).blk t).view.read (Elt Ideal) (target V c) := by
  show (cfg2.win 3).cut (grid2.coords t) ((dat2 V c).after 3 t) = _
  rw [after2_3]
  unfold out2_3
  rw [View.canon_unit_zero offsets_zero]
  simp only [View.ld_unit_zero (S := S400x10000) offsets_zero, View.ld_unit_zero (S := S10000x64) offsets_zero,
    View.ld_unit_zero (S := S1x64) offsets_zero]
  funext y
  obtain ⟨p, q, rfl⟩ : ∃ (p : Fin 400) (q : Fin 64), y = ix2 p q := ⟨y 0, y 1, eq_ix2 y⟩
  show k2_pay1 (F := Ideal) (adjBlock V c t) (featureBlock V c t) (biasBlock V c t) (ix2 p q)
    = target V c (((cfg2.win 3).blk t).view.emb (ix2 p q))
  refine (Payload.layer2_apply (adjBlock V c t) (featureBlock V c t) (biasBlock V c t) p q).trans ?_
  have hR : (⟨((((cfg2.win 3).blk t).view.emb (ix2 p q)) 0).val, idx2_lt0 _⟩ : Fin 10000).val
      = win2_3.index t (0 : Fin 2) * 400 + 1 * p.val := rfl
  have hC : (⟨((((cfg2.win 3).blk t).view.emb (ix2 p q)) 1).val, idx2_lt1 _⟩ : Fin 64).val
      = win2_3.index t (1 : Fin 2) * 64 + 1 * q.val := rfl
  unfold target ofEntries result
  rw [biasBlock_apply V c t q _ hC]
  congr 2
  exact Finset.sum_congr rfl fun k _ => by rw [adjBlock_apply V c t p k _ hR, featureBlock_apply V c t k q _ hC]

/-- An index of the result array is in point `t`'s block iff each coordinate is in the block's range. -/
theorem mem_block (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v4).slice (win2_3.rect t)).set ↔ _
  rw [View.set_slice_whole, Rect.mem_set_unit]
  exact Iff.rfl

/-- Every index of the result array is in some point's block: row `r` in block `r / 400`. -/
theorem covered (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  obtain ⟨t, ht⟩ := index_onto ⟨(i 0).val / 400, by omega⟩
  have q0 : win2_3.index t (0 : Fin 2) = (i 0).val / 400 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 64 ≤ (i 1).val ∧ (i 1).val < win2_3.index t (1 : Fin 2) * 64 + 64; omega

/-- THE RESULT ARRAY after the 25 points: the target matrix of the arrays the region found. -/
theorem array_eq (c : Dev nD) : (dat2 V c).arrAt 3 cfg2.N = target V c :=
  (dat2 V c).arrAt_eq_of_cover 3 (target V c) (fun t _ => flushed_eq V c t) covered

end Cert.KernelIdeal.Layer2

end
-- ==== Proof.KernelValue.lean ====
/-
  What the kernel program's result buffer holds after the run: the network of the six launch arrays.

  The run's buffer contents at each segment boundary are a fold from the launch memory: two reshapes of the
  biases into one-row matrices, then each region's arrays at what its write-backs leave. Read backwards from
  the result buffer:
    * the last region leaves `result` of the adjacency matrix, the projected features and the second bias it found;
    * the adjacency matrix it found is the launch's (no region writes it), the bias is the launch's second bias
      as a one-row matrix, and the projected features are what the middle region left: `projected` of the
      adjacency matrix, the support, the first bias and `W2` it found;
    * those again are the launch's, except the support, which the first region left: `support` of the launch's
      `x` and `W1`.
  Composed, that is `network` of the launch arrays, the biases read by column.
-/
import proofs.«130448_g3075196584310_cont_9to1_627_2_alg».proof.Proof.SupportValue
import proofs.«130448_g3075196584310_cont_9to1_627_2_alg».proof.Proof.Layer1Value
import proofs.«130448_g3075196584310_cont_9to1_627_2_alg».proof.Proof.Layer2Value
import Idealize.ShloMosaic.Lib.StableHlo.Run

set_option maxRecDepth 16384

noncomputable section

open scoped BigOperators

namespace Cert.KernelIdeal.Value

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The biases as one-row matrices -/

/-- A vector reshaped to a one-row matrix, read in its row. -/
theorem reshape128_apply (b : Vec Ideal S128 .f32) (j : Fin 128) :
    shapeCast S1x128 b shapeCasts_S128_S1x128 (ix2 0 j) = b (ix1 j) :=
  shapeCast_apply b shapeCasts_S128_S1x128 (ix2 0 j) (ix1 j) (by
    rw [Shape.rowMajor_val_one, Shape.rowMajor_val_two]
    show j.val = 0 * 128 + j.val
    omega)

theorem reshape64_apply (b : Vec Ideal S64 .f32) (j : Fin 64) :
    shapeCast S1x64 b shapeCasts_S64_S1x64 (ix2 0 j) = b (ix1 j) :=
  shapeCast_apply b shapeCasts_S64_S1x64 (ix2 0 j) (ix1 j) (by
    rw [Shape.rowMajor_val_one, Shape.rowMajor_val_two]
    show j.val = 0 * 64 + j.val
    omega)

/-- When the first region is entered the first bias's one-row matrix is the launch's bias reshaped. -/
theorem entry_bias1 (c : Dev nD) :
    (W1 m ρ c (Proc.devRef .tc main_v0) : Vec Ideal S1x128 .f32)
      = shapeCast S1x128 (m ((c : Thread nD τ).loc main_arg3)) shapeCasts_S128_S1x128 := by
  show StableHlo.after hostOps0 (W0 m ρ c) (Proc.devRef .tc main_v0) = _
  after_results
  rfl

/-- And the second bias's likewise. -/
theorem entry_bias2 (c : Dev nD) :
    (W1 m ρ c (Proc.devRef .tc main_v1) : Vec Ideal S1x64 .f32)
      = shapeCast S1x64 (m ((c : Thread nD τ).loc main_arg5)) shapeCasts_S64_S1x64 := by
  show StableHlo.after hostOps0 (W0 m ρ c) (Proc.devRef .tc main_v1) = _
  after_results
  rfl

/-! ## What the first region finds and leaves -/

theorem found1_x (c : Dev nD) : Support.xArr (V1 m ρ) c = m ((c : Thread nD τ).loc main_arg0) :=
  ((W2_arr m ρ c 0).trans (((dat0 (V1 m ρ) c).arrAt_in 0 rfl _).trans (A_eq0 (V1 m ρ) c 0))).symm.trans
    ((W3_of_ne m ρ c main_arg0 (by decide)).symm.trans ((W4_of_ne m ρ c main_arg0 (by decide)).symm.trans (W4_main_arg0 m ρ c)))

theorem found1_weight (c : Dev nD) : Support.weightArr (V1 m ρ) c = m ((c : Thread nD τ).loc main_arg2) :=
  ((W2_arr m ρ c 1).trans (((dat0 (V1 m ρ) c).arrAt_in 1 rfl _).trans (A_eq0 (V1 m ρ) c 1))).symm.trans
    ((W3_of_ne m ρ c main_arg2 (by decide)).symm.trans ((W4_of_ne m ρ c main_arg2 (by decide)).symm.trans (W4_main_arg2 m ρ c)))

/-- The support array after the first region. -/
theorem left1 (c : Dev nD) :
    (W2 m ρ c (Proc.devRef .tc main_v2) : Vec Ideal S10000x128 .f32)
      = ofEntries (support (m ((c : Thread nD τ).loc main_arg0)) (m ((c : Thread nD τ).loc main_arg2))) := by
  refine ((W2_arr m ρ c 2).trans (Support.array_eq (V1 m ρ) c)).trans ?_
  unfold Support.target
  rw [found1_x, found1_weight]

/-! ## What the middle region finds and leaves -/

theorem found2_adj (c : Dev nD) : Layer1.adjArr (V2 m ρ) c = m ((c : Thread nD τ).loc main_arg1) :=
  ((W3_arr m ρ c 0).trans (((dat1 (V2 m ρ) c).arrAt_in 0 rfl _).trans (A_eq1 (V2 m ρ) c 0))).symm.trans
    (((W4_arr m ρ c 0).trans (((dat2 (V3 m ρ) c).arrAt_in 0 rfl _).trans (A_eq2 (V3 m ρ) c 0))).symm.trans (W4_main_arg1 m ρ c))

theorem found2_weight (c : Dev nD) : Layer1.weightArr (V2 m ρ) c = m ((c : Thread nD τ).loc main_arg4) :=
  ((W3_arr m ρ c 3).trans (((dat1 (V2 m ρ) c).arrAt_in 3 rfl _).trans (A_eq1 (V2 m ρ) c 3))).symm.trans
    ((W4_of_ne m ρ c main_arg4 (by decide)).symm.trans (W4_main_arg4 m ρ c))

theorem found2_bias (c : Dev nD) (j : Fin 128) :
    Layer1.biasArr (V2 m ρ) c (ix2 0 j) = m ((c : Thread nD τ).loc main_arg3) (ix1 j) := by
  have e : Layer1.biasArr (V2 m ρ) c = shapeCast S1x128 (m ((c : Thread nD τ).loc main_arg3)) shapeCasts_S128_S1x128 :=
    (W2_of_ne m ρ c main_v0 (by decide)).trans (entry_bias1 m ρ c)
  rw [e, reshape128_apply]

/-- The projected features after the middle region. -/
theorem left2 (c : Dev nD) :
    (W3 m ρ c (Proc.devRef .tc main_v3) : Vec Ideal S10000x64 .f32)
      = ofEntries (projected (m ((c : Thread nD τ).loc main_arg1))
          (ofEntries (support (m ((c : Thread nD τ).loc main_arg0)) (m ((c : Thread nD τ).loc main_arg2))))
          (fun j => m ((c : Thread nD τ).loc main_arg3) (ix1 j)) (m ((c : Thread nD τ).loc main_arg4))) := by
  refine ((W3_arr m ρ c 4).trans (Layer1.array_eq (V2 m ρ) c)).trans ?_
  unfold Layer1.target
  rw [found2_adj, found2_weight, show Layer1.supportArr (V2 m ρ) c = _ from left1 m ρ c,
    show (fun j => Layer1.biasArr (V2 m ρ) c (ix2 0 j)) = _ from funext (found2_bias m ρ c)]

/-! ## What the last region finds and leaves -/

theorem found3_adj (c : Dev nD) : Layer2.adjArr (V3 m ρ) c = m ((c : Thread nD τ).loc main_arg1) :=
  ((W4_arr m ρ c 0).trans (((dat2 (V3 m ρ) c).arrAt_in 0 rfl _).trans (A_eq2 (V3 m ρ) c 0))).symm.trans (W4_main_arg1 m ρ c)

theorem found3_bias (c : Dev nD) (q : Fin 64) :
    Layer2.biasArr (V3 m ρ) c (ix2 0 q) = m ((c : Thread nD τ).loc main_arg5) (ix1 q) := by
  have e : Layer2.biasArr (V3 m ρ) c = shapeCast S1x64 (m ((c : Thread nD τ).loc main_arg5)) shapeCasts_S64_S1x64 :=
    (W3_of_ne m ρ c main_v1 (by decide)).trans ((W2_of_ne m ρ c main_v1 (by decide)).trans (entry_bias2 m ρ c))
  rw [e, reshape64_apply]

/-- THE RESULT BUFFER after the run is the network of the launch arrays. -/
theorem result_eq (c : Dev nD) :
    (W4 m ρ c (Proc.devRef .tc main_v4) : Vec Ideal S10000x64 .f32)
      = network (m ((c : Thread nD τ).loc main_arg0)) (m ((c : Thread nD τ).loc main_arg1)) (m ((c : Thread nD τ).loc main_arg2))
          (fun j => m ((c : Thread nD τ).loc main_arg3) (ix1 j)) (m ((c : Thread nD τ).loc main_arg4))
          (fun q => m ((c : Thread nD τ).loc main_arg5) (ix1 q)) := by
  refine ((W4_arr m ρ c 3).trans (Layer2.array_eq (V3 m ρ) c)).trans ?_
  unfold Layer2.target network
  rw [found3_adj, show Layer2.featureArr (V3 m ρ) c = _ from left2 m ρ c,
    show (fun q => Layer2.biasArr (V3 m ρ) c (ix2 0 q)) = _ from funext (found3_bias m ρ c)]

end Cert.KernelIdeal.Value

end
-- ==== Proof.RefValue.lean ====
/-
  The reference program computes the network of Spec.lean.

  Its sixteen host operations, read one at a time at an index: four matrix products, each the sum over its
  contracted axis; two biases broadcast along the rows; two maxima against a zero splat. Read in program order
  they are `support`, `hidden`, `projected` and `result`, each applied to the array the stage before it
  produced, with the biases read by column.
-/
import proofs.«130448_g3075196584310_cont_9to1_627_2_alg».proof.Proof.Spec
import proofs.«130448_g3075196584310_cont_9to1_627_2_alg».proof.Proof.Gen.ReferenceIdeal.Read

noncomputable section

open scoped BigOperators

namespace Cert.ReferenceIdeal.RefValue

open Cert.ReferenceIdeal Cert.ReferenceIdeal.Read Cert.Gcn Idealize.ShloMosaic Idealize.ShloMosaic.ValueIdx

/-- The row of an index of a two-axis array, as a number below the row count. -/
abbrev row {a b : Nat} (i : (⟨2, ![a, b]⟩ : Shape).Idx) : Fin a := ⟨(i 0).val, idx2_lt0 i⟩
/-- Its column. -/
abbrev col {a b : Nat} (i : (⟨2, ![a, b]⟩ : Shape).Idx) : Fin b := ⟨(i 1).val, idx2_lt1 i⟩

/-! ## The operands' indices of each product, by row and column -/

theorem l0 (i : S10000x128.Idx) (k : Fin 128) : lidx_main_v0 i k = ix2 (row i) k := by
  funext a; match a with | ⟨0, _⟩ => rfl | ⟨1, _⟩ => rfl
theorem r0 (i : S10000x128.Idx) (k : Fin 128) : ridx_main_v0 i k = ix2 k (col i) := by
  funext a; match a with | ⟨0, _⟩ => rfl | ⟨1, _⟩ => rfl
theorem l1 (i : S10000x128.Idx) (k : Fin 10000) : lidx_main_v1 i k = ix2 (row i) k := by
  funext a; match a with | ⟨0, _⟩ => rfl | ⟨1, _⟩ => rfl
theorem r1 (i : S10000x128.Idx) (k : Fin 10000) : ridx_main_v1 i k = ix2 k (col i) := by
  funext a; match a with | ⟨0, _⟩ => rfl | ⟨1, _⟩ => rfl
theorem l6 (i : S10000x64.Idx) (k : Fin 128) : lidx_main_v6 i k = ix2 (row i) k := by
  funext a; match a with | ⟨0, _⟩ => rfl | ⟨1, _⟩ => rfl
theorem r6 (i : S10000x64.Idx) (k : Fin 128) : ridx_main_v6 i k = ix2 k (col i) := by
  funext a; match a with | ⟨0, _⟩ => rfl | ⟨1, _⟩ => rfl
theorem l7 (i : S10000x64.Idx) (k : Fin 10000) : lidx_main_v7 i k = ix2 (row i) k := by
  funext a; match a with | ⟨0, _⟩ => rfl | ⟨1, _⟩ => rfl
theorem r7 (i : S10000x64.Idx) (k : Fin 10000) : ridx_main_v7 i k = ix2 k (col i) := by
  funext a; match a with | ⟨0, _⟩ => rfl | ⟨1, _⟩ => rfl
/-- The first bias, broadcast to a row and then down the rows, is read at the column. -/
theorem bias1 (i : S10000x128.Idx) : idx_main_v2 (idx_main_v3 i) = ix1 (col i) := by
  funext a; match a with | ⟨0, _⟩ => rfl
/-- The second bias likewise. -/
theorem bias2 (i : S10000x64.Idx) : idx_main_v8 (idx_main_v9 i) = ix1 (col i) := by
  funext a; match a with | ⟨0, _⟩ => rfl

/-! ## The stages -/

/-- `x · W1`. -/
theorem stage_support (x0 : (⟨S10000x128, .f32⟩ : BufTy).Contents (Elt Ideal)) (x2 : (⟨S128x128, .f32⟩ : BufTy).Contents (Elt Ideal)) :
    val_main_v0 (F := Ideal) x0 x2 = ofEntries (support x0 x2) := by
  funext i
  rw [val_main_v0_apply]
  simp only [l0, r0]
  rfl

/-- `max (adj · s + b1, 0)` over the support `s` the stage before produced. -/
theorem stage_hidden (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = ofEntries (hidden x1 (val_main_v0 (F := Ideal) x0 x2) (fun j => x3 (ix1 j))) := by
  funext i
  rw [val_main_v5_apply, val_main_v4_apply, val_main_v1_apply, val_main_v3_apply, val_main_v2_apply,
    val_main_call0_v0_apply, val_main_call0_cst_apply]
  simp only [l1, r1, bias1, Ideal.maximumf_def, Ideal.addf_def, Ideal.ofBits_def, Ideal.ofBits_zero_f32]
  rfl

/-- `hidden · W2`. -/
theorem stage_projected (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v6 (F := Ideal) x0 x1 x2 x3 x4
      = ofEntries (projected x1 (val_main_v0 (F := Ideal) x0 x2) (fun j => x3 (ix1 j)) x4) := by
  funext i
  rw [val_main_v6_apply, stage_hidden]
  simp only [l6, r6]
  rfl

/-- `max (adj · p + b2, 0)` over the projected features `p` the stage before produced. -/
theorem stage_result (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v11 (F := Ideal) x0 x1 x2 x3 x4 x5
      = ofEntries (result x1 (val_main_v6 (F := Ideal) x0 x1 x2 x3 x4) (fun c => x5 (ix1 c))) := by
  funext i
  rw [val_main_v11_apply, val_main_v10_apply, val_main_v7_apply, val_main_v9_apply, val_main_v8_apply,
    val_main_call1_v0_apply, val_main_call1_cst_apply]
  simp only [l7, r7, bias2, Ideal.maximumf_def, Ideal.addf_def, Ideal.ofBits_def, Ideal.ofBits_zero_f32]
  rfl

/-- The reference's result array is the network of its six arguments. -/
theorem value (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v11 (F := Ideal) x0 x1 x2 x3 x4 x5
      = network x0 x1 x2 (fun j => x3 (ix1 j)) x4 (fun c => x5 (ix1 c)) := by
  rw [stage_result, stage_projected, stage_support]
  rfl

end Cert.ReferenceIdeal.RefValue

end
-- ==== Proof.lean ====
/-
  The kernel program and the reference compute one two-layer graph convolution,
    `max (adj · (max (adj · (x · W1) + b1, 0) · W2) + b2, 0)`,
  and on the extended reals they are the same four functions composed in the same order (Proof/Spec.lean):
  the kernel program computes `x · W1` in one pallas_call, then `max (adj · s + b1, 0) · W2` and
  `max (adj · p + b2, 0)` in two pallas_calls that each walk the adjacency matrix in 25 blocks of 400 rows;
  the reference computes the same products whole on the host. No sum is re-associated and nothing is
  distributed over a sum, so the precondition's finiteness is never used.

  * The three frames: the two kernel programs' are their generated frame certificates; the reference's is
    its generated run with the result dropped.
  * `preserves`: the idealization rewrote no operation, so there is nothing to state.
  * `algebraic`: the kernel program's result buffer ends at the network of the launch arrays (the launch of
    Proof/KernelRun.lean names the buffer at the last boundary's contents; Proof/KernelValue.lean reads those
    contents back region by region, each region's output array by Proof/SupportValue.lean, Proof/Layer1Value.lean
    and Proof/Layer2Value.lean over the stores of Proof/Payloads.lean); the reference's result ends at the same
    network (Proof/RefValue.lean, over the reference's operations read one at a time); the two memories agree on
    the arguments.
-/
import proofs.«130448_g3075196584310_cont_9to1_627_2_alg».proof.Defs
import proofs.«130448_g3075196584310_cont_9to1_627_2_alg».proof.Proof.Gen.Kernel
import proofs.«130448_g3075196584310_cont_9to1_627_2_alg».proof.Proof.Gen.Kernel.Frame
import proofs.«130448_g3075196584310_cont_9to1_627_2_alg».proof.Proof.Gen.KernelIdeal
import proofs.«130448_g3075196584310_cont_9to1_627_2_alg».proof.Proof.Gen.KernelIdeal.Frame
import proofs.«130448_g3075196584310_cont_9to1_627_2_alg».proof.Proof.Gen.ReferenceIdeal
import proofs.«130448_g3075196584310_cont_9to1_627_2_alg».proof.Proof.Gen.ReferenceIdeal.Run
import proofs.«130448_g3075196584310_cont_9to1_627_2_alg».proof.Proof.Gen.ReferenceIdeal.Read
import proofs.«130448_g3075196584310_cont_9to1_627_2_alg».proof.Proof.Gen.Pre_finite_inputs
import proofs.«130448_g3075196584310_cont_9to1_627_2_alg».proof.Proof.KernelRun
import proofs.«130448_g3075196584310_cont_9to1_627_2_alg».proof.Proof.KernelValue
import proofs.«130448_g3075196584310_cont_9to1_627_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the kernel program's launch arrays in their result buffers. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun j => m ((c.tc : Thread Cert.KernelIdeal.nD Cert.KernelIdeal.τ).loc Cert.KernelIdeal.main_arg3) (ix1 j))
      (m ((c.tc : Thread Cert.KernelIdeal.nD Cert.KernelIdeal.τ).loc Cert.KernelIdeal.main_arg4))
      (fun q => m ((c.tc : Thread Cert.KernelIdeal.nD Cert.KernelIdeal.τ).loc Cert.KernelIdeal.main_arg5) (ix1 q)), ?_, ?_⟩
  · exact (θ_run Cert.KernelIdeal.defs _ _).mono
      (fun r h c => ⟨(h c).1.trans (Cert.KernelIdeal.Value.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v11_eq _ _ _ _ _ _).trans ((Cert.ReferenceIdeal.RefValue.value _ _ _ _ _ _).trans ?_)
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
